-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1280 : Shape := ⟨3, ![8, 1024, 1280]⟩
abbrev S8x163840 : Shape := ⟨2, ![8, 163840]⟩
abbrev S_ : Shape := ⟨0, ![]⟩

class Facts : Prop where
  bcast_S_S8x1024x1280 : S_.BroadcastsInDim S8x1024x1280 (![] : Fin 0 → Fin S8x1024x1280.rank)
  reducesTo_S8x1024x1280_S_d0_1_2 : S8x1024x1280.ReducesTo [0, 1, 2] S_
  h_S_ : 0 < S_.numel
  bcast_S_S8x163840 : S_.BroadcastsInDim S8x163840 (![] : Fin 0 → Fin S8x163840.rank)
  reducesTo_S8x163840_S_d0_1 : S8x163840.ReducesTo [0, 1] S_

variable [Facts]

def fn {F : FTy → Type} [FloatOps F] (main_arg0 : FVec F S8x1024x1280 .f32) (main_arg1 : FVec F S8x163840 .f32) : IVec S_ 1 :=
  let main_v0 : FVec F S8x1024x1280 .f32 := Host.absf main_arg0
  let main_cst : FVec F S_ .f32 := constant S_ .f32 0x7F800000#32
  let main_v1 : FVec F S8x1024x1280 .f32 := broadcastInDim S8x1024x1280 ![] bcast_S_S8x1024x1280 main_cst
  let main_v2 : IVec S8x1024x1280 1 := cmpf .olt main_v0 main_v1
  let main_c : IVec S_ 1 := constantI S_ 1 1#1
  let main_v3 : IVec S_ 1 := (fun x v => Host.reduce IntOp.andi x v reducesTo_S8x1024x1280_S_d0_1_2 h_S_) main_v2 main_c
  let main_v4 : FVec F S8x163840 .f32 := Host.absf main_arg1
  let main_cst_0 : FVec F S_ .f32 := constant S_ .f32 0x7F800000#32
  let main_v5 : FVec F S8x163840 .f32 := broadcastInDim S8x163840 ![] bcast_S_S8x163840 main_cst_0
  let main_v6 : IVec S8x163840 1 := cmpf .olt main_v4 main_v5
  let main_c_1 : IVec S_ 1 := constantI S_ 1 1#1
  let main_v7 : IVec S_ 1 := (fun x v => Host.reduce IntOp.andi x v reducesTo_S8x163840_S_d0_1 h_S_) main_v6 main_c_1
  let main_v8 : IVec S_ 1 := andi main_v3 main_v7
  main_v8
-- ==== Kernel.lean ====
abbrev S8x1024x1280 : Shape := ⟨3, ![8, 1024, 1280]⟩
abbrev S8x163840 : Shape := ⟨2, ![8, 163840]⟩
abbrev S8x81920 : Shape := ⟨2, ![8, 81920]⟩
abbrev S8x64x1280 : Shape := ⟨3, ![8, 64, 1280]⟩
abbrev S8x1280x64 : Shape := ⟨3, ![8, 1280, 64]⟩
abbrev S1x1024x1280 : Shape := ⟨3, ![1, 1024, 1280]⟩
abbrev S1x64x1280 : Shape := ⟨3, ![1, 64, 1280]⟩
abbrev S1x1280x64 : Shape := ⟨3, ![1, 1280, 64]⟩
abbrev S1024x1280 : Shape := ⟨2, ![1024, 1280]⟩
abbrev S64x1280 : Shape := ⟨2, ![64, 1280]⟩
abbrev S1024x64 : Shape := ⟨2, ![1024, 64]⟩
abbrev S1280x64 : Shape := ⟨2, ![1280, 64]⟩

abbrev nBuf : Space → Nat
  | .hbm => 7
  | .vmem => 8
  | .smem => 0
  | _ => 0

abbrev bufTy : (tb : Table) → Fin (tcTables nBuf tb) → BufTy
  | .hbm, ⟨0, _⟩ => ⟨S8x1024x1280, .f32⟩
  | .hbm, ⟨1, _⟩ => ⟨S8x163840, .f32⟩
  | .hbm, ⟨2, _⟩ => ⟨S8x81920, .f32⟩
  | .hbm, ⟨3, _⟩ => ⟨S8x64x1280, .f32⟩
  | .hbm, ⟨4, _⟩ => ⟨S8x81920, .f32⟩
  | .hbm, ⟨5, _⟩ => ⟨S8x1280x64, .f32⟩
  | .hbm, ⟨6, _⟩ => ⟨S8x1024x1280, .f32⟩
  | .local _ .vmem, ⟨0, _⟩ => ⟨S1x1024x1280, .f32⟩
  | .local _ .vmem, ⟨1, _⟩ => ⟨S1x1024x1280, .f32⟩
  | .local _ .vmem, ⟨2, _⟩ => ⟨S1x64x1280, .f32⟩
  | .local _ .vmem, ⟨3, _⟩ => ⟨S1x64x1280, .f32⟩
  | .local _ .vmem, ⟨4, _⟩ => ⟨S1x1280x64, .f32⟩
  | .local _ .vmem, ⟨5, _⟩ => ⟨S1x1280x64, .f32⟩
  | .local _ .vmem, ⟨6, _⟩ => ⟨S1x1024x1280, .f32⟩
  | .local _ .vmem, ⟨7, _⟩ => ⟨S1x1024x1280, .f32⟩
  | _, _ => ⟨S8x1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1280x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S8x163840_S8x81920_0_0 : S8x163840.Slices ![0, 0] S8x81920
  shapeCasts_S8x81920_S8x64x1280 : S8x81920.ShapeCasts S8x64x1280
  slices_S8x163840_S8x81920_0_81920 : S8x163840.Slices ![0, 81920] S8x81920
  shapeCasts_S8x81920_S8x1280x64 : S8x81920.ShapeCasts S8x1280x64
  inb_S1x1024x1280_S1x1024x1280_0_0_0 : ∀ a, (![0, 0, 0] : Fin 3 → Nat) a + S1x1024x1280.size a ≤ S1x1024x1280.size a
  h_S1x1024x1280 : 0 < S1x1024x1280.numel
  shapeCasts_S1x1024x1280_S1024x1280 : S1x1024x1280.ShapeCasts S1024x1280
  bitsLt_bf16_f32 : FTy.bits .bf16 < FTy.bits .f32
  inb_S1x64x1280_S1x64x1280_0_0_0 : ∀ a, (![0, 0, 0] : Fin 3 → Nat) a + S1x64x1280.size a ≤ S1x64x1280.size a
  h_S1x64x1280 : 0 < S1x64x1280.numel
  shapeCasts_S1x64x1280_S64x1280 : S1x64x1280.ShapeCasts S64x1280
  inb_S1x1280x64_S1x1280x64_0_0_0 : ∀ a, (![0, 0, 0] : Fin 3 → Nat) a + S1x1280x64.size a ≤ S1x1280x64.size a
  h_S1x1280x64 : 0 < S1x1280x64.numel
  shapeCasts_S1x1280x64_S1280x64 : S1x1280x64.ShapeCasts S1280x64
  shapeCasts_S1024x1280_S1x1024x1280 : S1024x1280.ShapeCasts S1x1024x1280
  dot_S1024x1280_S64x1280_S1024x64_1_1_0_0_n_n_wf : DotDims.WF S1024x1280 S64x1280 S1024x64 [1] [1] [0] [0] [] []
  dot_S1024x64_S1280x64_S1024x1280_1_1_0_0_n_n_wf : DotDims.WF S1024x64 S1280x64 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1280.size a ≤ S8x1024x1280.size a
  hwx0_0 : ∀ i : grid0.Coords, EltTy.bits .f32 = 32 ∨ (Rect.block (s := S8x1024x1280) S1x1024x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1280.size a ≤ S8x64x1280.size a
  hwx0_1 : ∀ i : grid0.Coords, EltTy.bits .f32 = 32 ∨ (Rect.block (s := S8x64x1280) S1x64x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280x64.size a ≤ S8x1280x64.size a
  hwx0_2 : ∀ i : grid0.Coords, EltTy.bits .f32 = 32 ∨ (Rect.block (s := S8x1280x64) S1x1280x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1280.size a ≤ S8x1024x1280.size a
  hwx0_3 : ∀ i : grid0.Coords, EltTy.bits .f32 = 32 ∨ (Rect.block (s := S8x1024x1280) S1x1024x1280.size (cc0_transform_3 i) (hinb0_3 i)).WholeWords (EltTy.packing .f32)

variable [Facts₀]

def dot_S1024x1280_S64x1280_S1024x64_1_1_0_0_n_n : DotDims S1024x1280 S64x1280 S1024x64 where
  lhsContracting := [1]
  rhsContracting := [1]
  lhsNonContracting := [0]
  rhsNonContracting := [0]
  lhsBatch := []
  rhsBatch := []
  wf := dot_S1024x1280_S64x1280_S1024x64_1_1_0_0_n_n_wf
def dot_S1024x64_S1280x64_S1024x1280_1_1_0_0_n_n : DotDims S1024x64 S1280x64 S1024x1280 where
  lhsContracting := [1]
  rhsContracting := [1]
  lhsNonContracting := [0]
  rhsNonContracting := [0]
  lhsBatch := []
  rhsBatch := []
  wf := dot_S1024x64_S1280x64_S1024x1280_1_1_0_0_n_n_wf

abbrev win0_0 : Pipeline.Window sig grid0 :=
  Pipeline.Window.ofSpec (Memref.whole main_arg0) S1x1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1280x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x1280 : Shape := ⟨3, ![8, 1024, 1280]⟩
abbrev S8x163840 : Shape := ⟨2, ![8, 163840]⟩
abbrev S8x81920 : Shape := ⟨2, ![8, 81920]⟩
abbrev S8x64x1280 : Shape := ⟨3, ![8, 64, 1280]⟩
abbrev S8x1024x64 : Shape := ⟨3, ![8, 1024, 64]⟩
abbrev S8x1280x64 : Shape := ⟨3, ![8, 1280, 64]⟩

abbrev nBuf : Space → Nat
  | .hbm => 8
  | .vmem => 0
  | .smem => 0
  | _ => 0

abbrev bufTy : (tb : Table) → Fin (tcTables nBuf tb) → BufTy
  | .hbm, ⟨0, _⟩ => ⟨S8x1024x1280, .f32⟩
  | .hbm, ⟨1, _⟩ => ⟨S8x163840, .f32⟩
  | .hbm, ⟨2, _⟩ => ⟨S8x81920, .f32⟩
  | .hbm, ⟨3, _⟩ => ⟨S8x64x1280, .f32⟩
  | .hbm, ⟨4, _⟩ => ⟨S8x1024x64, .f32⟩
  | .hbm, ⟨5, _⟩ => ⟨S8x81920, .f32⟩
  | .hbm, ⟨6, _⟩ => ⟨S8x1280x64, .f32⟩
  | .hbm, ⟨7, _⟩ => ⟨S8x1024x1280, .f32⟩
  | _, _ => ⟨S8x1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  slices_S8x163840_S8x81920_0_0 : S8x163840.Slices ![0, 0] S8x81920
  shapeCasts_S8x81920_S8x64x1280 : S8x81920.ShapeCasts S8x64x1280
  slices_S8x163840_S8x81920_0_81920 : S8x163840.Slices ![0, 81920] S8x81920
  shapeCasts_S8x81920_S8x1280x64 : S8x81920.ShapeCasts S8x1280x64
  dot_S8x1024x1280_S8x64x1280_S8x1024x64_2_2_1_1_0_0_wf : DotDims.WF S8x1024x1280 S8x64x1280 S8x1024x64 [2] [2] [1] [1] [0] [0]
  dot_S8x1024x64_S8x1280x64_S8x1024x1280_2_2_1_1_0_0_wf : DotDims.WF S8x1024x64 S8x1280x64 S8x1024x1280 [2] [2] [1] [1] [0] [0]

variable [Facts₀]

def dot_S8x1024x1280_S8x64x1280_S8x1024x64_2_2_1_1_0_0 : DotDims S8x1024x1280 S8x64x1280 S8x1024x64 where
  lhsContracting := [2]
  rhsContracting := [2]
  lhsNonContracting := [1]
  rhsNonContracting := [1]
  lhsBatch := [0]
  rhsBatch := [0]
  wf := dot_S8x1024x1280_S8x64x1280_S8x1024x64_2_2_1_1_0_0_wf
def dot_S8x1024x64_S8x1280x64_S8x1024x1280_2_2_1_1_0_0 : DotDims S8x1024x64 S8x1280x64 S8x1024x1280 where
  lhsContracting := [2]
  rhsContracting := [2]
  lhsNonContracting := [1]
  rhsNonContracting := [1]
  lhsBatch := [0]
  rhsBatch := [0]
  wf := dot_S8x1024x64_S8x1280x64_S8x1024x1280_2_2_1_1_0_0_wf

class Facts : Prop extends Facts₀ where

variable [Facts]
-- ==== Proof.Body.lean ====
/-
  What the kernel body stores, read at one entry, at the ideal instance.

  The body loads one sample's blocks — x (1 × 1024 × 1280), W_down (1 × 64 × 1280), W_up (1 × 1280 × 64) — drops
  their leading unit axis, and chains two matrix products, each into a zero accumulator and each contracting axis 1
  of both operands:  h = x · W_downᵀ  (1024 × 64), then  h · W_upᵀ  (1024 × 1280), stored under a new leading unit axis.
  At the ideal instance the narrowing casts between the steps are the identity and a product into the zero
  accumulator is the plain sum over the contracted axis, so entry (0, s, o) of the stored block is

      ∑_{r < 64} ( ∑_{d < 1280} x[0, s, d] · W_down[0, r, d] ) · W_up[0, o, r].
-/
import proofs.«182181_j2826088480798_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## Dropping and adding the leading unit axis -/

section Casts
variable {α : Type}

/-- A 1 × 1024 × 1280 block viewed as 1024 × 1280 reads (0, s, d) at (s, d). -/
theorem drop_act (v : S1x1024x1280.Idx → α) (s : Fin 1024) (d : Fin 1280) :
    shapeCast S1024x1280 v shapeCasts_S1x1024x1280_S1024x1280 (ix2 s d) = v (ix3 0 s d) :=
  shapeCast_apply v shapeCasts_S1x1024x1280_S1024x1280 (ix2 s d) (ix3 0 s d)
    (by rewrite [Shape.rowMajor_val_two, Shape.rowMajor_val_three]
        show (0 * 1024 + s.val) * 1280 + d.val = s.val * 1280 + d.val; omega)

/-- A 1 × 64 × 1280 block viewed as 64 × 1280 reads (0, r, d) at (r, d). -/
theorem drop_down (v : S1x64x1280.Idx → α) (r : Fin 64) (d : Fin 1280) :
    shapeCast S64x1280 v shapeCasts_S1x64x1280_S64x1280 (ix2 r d) = v (ix3 0 r d) :=
  shapeCast_apply v shapeCasts_S1x64x1280_S64x1280 (ix2 r d) (ix3 0 r d)
    (by rewrite [Shape.rowMajor_val_two, Shape.rowMajor_val_three]
        show (0 * 64 + r.val) * 1280 + d.val = r.val * 1280 + d.val; omega)

/-- A 1 × 1280 × 64 block viewed as 1280 × 64 reads (0, o, r) at (o, r). -/
theorem drop_up (v : S1x1280x64.Idx → α) (o : Fin 1280) (r : Fin 64) :
    shapeCast S1280x64 v shapeCasts_S1x1280x64_S1280x64 (ix2 o r) = v (ix3 0 o r) :=
  shapeCast_apply v shapeCasts_S1x1280x64_S1280x64 (ix2 o r) (ix3 0 o r)
    (by rewrite [Shape.rowMajor_val_two, Shape.rowMajor_val_three]
        show (0 * 1280 + o.val) * 64 + r.val = o.val * 64 + r.val; omega)

/-- A 1024 × 1280 result stored as a 1 × 1024 × 1280 block reads (s, o) at (z, s, o): the unit axis has one coordinate. -/
theorem add_act (v : S1024x1280.Idx → α) (z : Fin 1) (s : Fin 1024) (o : Fin 1280) :
    shapeCast S1x1024x1280 v shapeCasts_S1024x1280_S1x1024x1280 (ix3 z s o) = v (ix2 s o) :=
  shapeCast_apply v shapeCasts_S1024x1280_S1x1024x1280 (ix3 z s o) (ix2 s o)
    (by rewrite [Shape.rowMajor_val_two, Shape.rowMajor_val_three]
        have hz : z.val = 0 := by have := z.isLt; omega
        show s.val * 1280 + o.val = (z.val * 1024 + s.val) * 1280 + o.val; rw [hz]; omega)

end Casts

/-! ## The down-projection: 1024 × 1280 against 64 × 1280, contracting axis 1 of both -/

theorem lhs_dot_S1024x1280_S64x1280_S1024x64_1_1_0_0_n_n_0 (i : S1024x64.Idx) (q : dot_S1024x1280_S64x1280_S1024x64_1_1_0_0_n_n.contr.Idx) :
    (dot_S1024x1280_S64x1280_S1024x64_1_1_0_0_n_n.lhsIdx i q 0).val = (i 0).val := by
  unfold DotDims.lhsIdx
  rw [dif_neg (show ¬(0 : Fin S1024x1280.rank) ∈ dot_S1024x1280_S64x1280_S1024x64_1_1_0_0_n_n.lhsBatch by decide), dif_pos (show (0 : Fin S1024x1280.rank) ∈ dot_S1024x1280_S64x1280_S1024x64_1_1_0_0_n_n.lhsNonContracting by decide)]
  rfl
theorem lhs_dot_S1024x1280_S64x1280_S1024x64_1_1_0_0_n_n_1 (i : S1024x64.Idx) (q : dot_S1024x1280_S64x1280_S1024x64_1_1_0_0_n_n.contr.Idx) :
    (dot_S1024x1280_S64x1280_S1024x64_1_1_0_0_n_n.lhsIdx i q 1).val = (q ⟨0, by decide⟩).val :=
  dot_S1024x1280_S64x1280_S1024x64_1_1_0_0_n_n.lhsIdx_val_of_single rfl i q
theorem rhs_dot_S1024x1280_S64x1280_S1024x64_1_1_0_0_n_n_0 (i : S1024x64.Idx) (q : dot_S1024x1280_S64x1280_S1024x64_1_1_0_0_n_n.contr.Idx) :
    (dot_S1024x1280_S64x1280_S1024x64_1_1_0_0_n_n.rhsIdx i q 0).val = (i 1).val := by
  unfold DotDims.rhsIdx
  rw [dif_neg (show ¬(0 : Fin S64x1280.rank) ∈ dot_S1024x1280_S64x1280_S1024x64_1_1_0_0_n_n.rhsBatch by decide), dif_pos (show (0 : Fin S64x1280.rank) ∈ dot_S1024x1280_S64x1280_S1024x64_1_1_0_0_n_n.rhsNonContracting by decide)]
  rfl
theorem rhs_dot_S1024x1280_S64x1280_S1024x64_1_1_0_0_n_n_1 (i : S1024x64.Idx) (q : dot_S1024x1280_S64x1280_S1024x64_1_1_0_0_n_n.contr.Idx) :
    (dot_S1024x1280_S64x1280_S1024x64_1_1_0_0_n_n.rhsIdx i q 1).val = (q ⟨0, by decide⟩).val :=
  dot_S1024x1280_S64x1280_S1024x64_1_1_0_0_n_n.rhsIdx_val_of_single rfl i q

/-- Entry (s, r) of the down-projection into the zero accumulator: row s of the left operand against row r of the right. -/
theorem down_apply (a : FVec Ideal S1024x1280 .bf16) (w : FVec Ideal S64x1280 .bf16) (s : Fin 1024) (r : Fin 64) :
    matmul (F := Ideal) dot_S1024x1280_S64x1280_S1024x64_1_1_0_0_n_n none a w (constant (F := Ideal) S1024x64 .f32 0x00000000#32) (ix2 s r)
      = ∑ d : Fin 1280, a (ix2 s d) * w (ix2 r d) := by
  simp only [matmul]
  rw [Ideal.matmul_constant_zero_apply, ← Equiv.sum_comp (ValueIdx.contrEquiv1 dot_S1024x1280_S64x1280_S1024x64_1_1_0_0_n_n 1280 rfl rfl).symm]
  refine Finset.sum_congr rfl fun k _ => ?_
  have hk := ValueIdx.contrEquiv1_symm_val dot_S1024x1280_S64x1280_S1024x64_1_1_0_0_n_n 1280 rfl rfl k
  have el : dot_S1024x1280_S64x1280_S1024x64_1_1_0_0_n_n.lhsIdx (ix2 s r) ((ValueIdx.contrEquiv1 dot_S1024x1280_S64x1280_S1024x64_1_1_0_0_n_n 1280 rfl rfl).symm k) = ix2 s k := funext fun a => Fin.ext (by
    match a with
    | ⟨0, _⟩ => exact lhs_dot_S1024x1280_S64x1280_S1024x64_1_1_0_0_n_n_0 _ _
    | ⟨1, _⟩ => exact (lhs_dot_S1024x1280_S64x1280_S1024x64_1_1_0_0_n_n_1 _ _).trans hk)
  have er : dot_S1024x1280_S64x1280_S1024x64_1_1_0_0_n_n.rhsIdx (ix2 s r) ((ValueIdx.contrEquiv1 dot_S1024x1280_S64x1280_S1024x64_1_1_0_0_n_n 1280 rfl rfl).symm k) = ix2 r k := funext fun a => Fin.ext (by
    match a with
    | ⟨0, _⟩ => exact rhs_dot_S1024x1280_S64x1280_S1024x64_1_1_0_0_n_n_0 _ _
    | ⟨1, _⟩ => exact (rhs_dot_S1024x1280_S64x1280_S1024x64_1_1_0_0_n_n_1 _ _).trans hk)
  rw [el, er]

/-! ## The up-projection: 1024 × 64 against 1280 × 64, contracting axis 1 of both -/

theorem lhs_dot_S1024x64_S1280x64_S1024x1280_1_1_0_0_n_n_0 (i : S1024x1280.Idx) (q : dot_S1024x64_S1280x64_S1024x1280_1_1_0_0_n_n.contr.Idx) :
    (dot_S1024x64_S1280x64_S1024x1280_1_1_0_0_n_n.lhsIdx i q 0).val = (i 0).val := by
  unfold DotDims.lhsIdx
  rw [dif_neg (show ¬(0 : Fin S1024x64.rank) ∈ dot_S1024x64_S1280x64_S1024x1280_1_1_0_0_n_n.lhsBatch by decide), dif_pos (show (0 : Fin S1024x64.rank) ∈ dot_S1024x64_S1280x64_S1024x1280_1_1_0_0_n_n.lhsNonContracting by decide)]
  rfl
theorem lhs_dot_S1024x64_S1280x64_S1024x1280_1_1_0_0_n_n_1 (i : S1024x1280.Idx) (q : dot_S1024x64_S1280x64_S1024x1280_1_1_0_0_n_n.contr.Idx) :
    (dot_S1024x64_S1280x64_S1024x1280_1_1_0_0_n_n.lhsIdx i q 1).val = (q ⟨0, by decide⟩).val :=
  dot_S1024x64_S1280x64_S1024x1280_1_1_0_0_n_n.lhsIdx_val_of_single rfl i q
theorem rhs_dot_S1024x64_S1280x64_S1024x1280_1_1_0_0_n_n_0 (i : S1024x1280.Idx) (q : dot_S1024x64_S1280x64_S1024x1280_1_1_0_0_n_n.contr.Idx) :
    (dot_S1024x64_S1280x64_S1024x1280_1_1_0_0_n_n.rhsIdx i q 0).val = (i 1).val := by
  unfold DotDims.rhsIdx
  rw [dif_neg (show ¬(0 : Fin S1280x64.rank) ∈ dot_S1024x64_S1280x64_S1024x1280_1_1_0_0_n_n.rhsBatch by decide), dif_pos (show (0 : Fin S1280x64.rank) ∈ dot_S1024x64_S1280x64_S1024x1280_1_1_0_0_n_n.rhsNonContracting by decide)]
  rfl
theorem rhs_dot_S1024x64_S1280x64_S1024x1280_1_1_0_0_n_n_1 (i : S1024x1280.Idx) (q : dot_S1024x64_S1280x64_S1024x1280_1_1_0_0_n_n.contr.Idx) :
    (dot_S1024x64_S1280x64_S1024x1280_1_1_0_0_n_n.rhsIdx i q 1).val = (q ⟨0, by decide⟩).val :=
  dot_S1024x64_S1280x64_S1024x1280_1_1_0_0_n_n.rhsIdx_val_of_single rfl i q

/-- Entry (s, o) of the up-projection into the zero accumulator: row s of the left operand against row o of the right. -/
theorem up_apply (h : FVec Ideal S1024x64 .bf16) (w : FVec Ideal S1280x64 .bf16) (s : Fin 1024) (o : Fin 1280) :
    matmul (F := Ideal) dot_S1024x64_S1280x64_S1024x1280_1_1_0_0_n_n none h w (constant (F := Ideal) S1024x1280 .f32 0x00000000#32) (ix2 s o)
      = ∑ r : Fin 64, h (ix2 s r) * w (ix2 o r) := by
  simp only [matmul]
  rw [Ideal.matmul_constant_zero_apply, ← Equiv.sum_comp (ValueIdx.contrEquiv1 dot_S1024x64_S1280x64_S1024x1280_1_1_0_0_n_n 64 rfl rfl).symm]
  refine Finset.sum_congr rfl fun k _ => ?_
  have hk := ValueIdx.contrEquiv1_symm_val dot_S1024x64_S1280x64_S1024x1280_1_1_0_0_n_n 64 rfl rfl k
  have el : dot_S1024x64_S1280x64_S1024x1280_1_1_0_0_n_n.lhsIdx (ix2 s o) ((ValueIdx.contrEquiv1 dot_S1024x64_S1280x64_S1024x1280_1_1_0_0_n_n 64 rfl rfl).symm k) = ix2 s k := funext fun a => Fin.ext (by
    match a with
    | ⟨0, _⟩ => exact lhs_dot_S1024x64_S1280x64_S1024x1280_1_1_0_0_n_n_0 _ _
    | ⟨1, _⟩ => exact (lhs_dot_S1024x64_S1280x64_S1024x1280_1_1_0_0_n_n_1 _ _).trans hk)
  have er : dot_S1024x64_S1280x64_S1024x1280_1_1_0_0_n_n.rhsIdx (ix2 s o) ((ValueIdx.contrEquiv1 dot_S1024x64_S1280x64_S1024x1280_1_1_0_0_n_n 64 rfl rfl).symm k) = ix2 o k := funext fun a => Fin.ext (by
    match a with
    | ⟨0, _⟩ => exact rhs_dot_S1024x64_S1280x64_S1024x1280_1_1_0_0_n_n_0 _ _
    | ⟨1, _⟩ => exact (rhs_dot_S1024x64_S1280x64_S1024x1280_1_1_0_0_n_n_1 _ _).trans hk)
  rw [el, er]

/-! ## The stored block at an entry -/

/-- Entry (z, s, o) of the block the body stores, from the three loaded blocks: the two sums, nested as computed. -/
theorem stored_apply (x0 : Vec Ideal S1x1024x1280 .f32) (x1 : Vec Ideal S1x64x1280 .f32) (x2 : Vec Ideal S1x1280x64 .f32)
    (z : Fin 1) (s : Fin 1024) (o : Fin 1280) :
    k0_pay1 (F := Ideal) x0 x1 x2 (ix3 z s o)
      = ∑ r : Fin 64, (∑ d : Fin 1280, x0 (ix3 0 s d) * x1 (ix3 0 r d)) * x2 (ix3 0 o r) := by
  unfold k0_pay1
  refine (add_act _ z s o).trans ?_
  refine (up_apply _ _ s o).trans ?_
  refine Finset.sum_congr rfl fun r _ => ?_
  refine congrArg₂ (· * ·) ?_ ?_
  · refine (down_apply _ _ s r).trans ?_
    refine Finset.sum_congr rfl fun d _ => ?_
    exact congrArg₂ (· * ·) (drop_act x0 s d) (drop_down x1 r d)
  · exact drop_up x2 o r

end Cert.KernelIdeal.Body

end
-- ==== Proof.LowRank.lean ====
/-
  The function both programs compute, stated once over literal shapes.

  A batch of 8 activations x[b] (1024 × 1280) is pushed through a per-sample rank-64 bottleneck: first the
  down-projection against W_down[b] (64 × 1280), contracting the 1280 input features, then the up-projection
  against W_up[b] (1280 × 64), contracting the 64 rank coordinates:

      out[b, s, o] = ∑_{r < 64} ( ∑_{d < 1280} x[b, s, d] · W_down[b, r, d] ) · W_up[b, o, r].

  The inner sum is kept nested inside the outer one exactly as both programs evaluate it, so no distributive law
  (which fails at the infinities of the extended reals) is ever needed to compare them.
-/
import Idealize.ShloMosaic.PureOps.Ideal
import Idealize.ShloMosaic.Lib.ValueIdx

noncomputable section

namespace Cert.LowRank

open Idealize.ShloMosaic Idealize.ShloMosaic.ValueIdx

/-- Activations and results: batch × sequence × features. -/
abbrev SAct : Shape := ⟨3, ![8, 1024, 1280]⟩
/-- Down-projection weights: batch × rank × input features. -/
abbrev SDown : Shape := ⟨3, ![8, 64, 1280]⟩
/-- Up-projection weights: batch × output features × rank. -/
abbrev SUp : Shape := ⟨3, ![8, 1280, 64]⟩

/-- Coordinate `r` of the bottleneck for row `s` of sample `b`: the row's inner product with row `r` of `W_down[b]`. -/
def hidden (x : SAct.Idx → EReal) (wd : SDown.Idx → EReal) (b : Fin 8) (s : Fin 1024) (r : Fin 64) : EReal :=
  ∑ d : Fin 1280, x (ix3 b s d) * wd (ix3 b r d)

/-- One entry of the result: the bottleneck row's inner product with row `o` of `W_up[b]`. -/
def entry (x : SAct.Idx → EReal) (wd : SDown.Idx → EReal) (wu : SUp.Idx → EReal)
    (b : Fin 8) (s : Fin 1024) (o : Fin 1280) : EReal :=
  ∑ r : Fin 64, hidden x wd b s r * wu (ix3 b o r)

/-- The whole result array, index by index. -/
def update (x : SAct.Idx → EReal) (wd : SDown.Idx → EReal) (wu : SUp.Idx → EReal) : SAct.Idx → EReal :=
  fun i => entry x wd wu (i 0) (i 1) (i 2)

theorem update_apply (x : SAct.Idx → EReal) (wd : SDown.Idx → EReal) (wu : SUp.Idx → EReal)
    (b : Fin 8) (s : Fin 1024) (o : Fin 1280) :
    update x wd wu (ix3 b s o) = ∑ r : Fin 64, (∑ d : Fin 1280, x (ix3 b s d) * wd (ix3 b r d)) * wu (ix3 b o r) := rfl

end Cert.LowRank

end
-- ==== Proof.KernelValue.lean ====
/-
  The kernel's result array is the specification.

  The grid has one point per sample. At point t the pipeline stages block (b, 0, 0) of each operand, b the point's
  sample, with block extents (1, 1024, 1280), (1, 64, 1280) and (1, 1280, 64): the whole of sample b's activations
  and of its two weight matrices. The body's stored block (Body.lean) is therefore sample b of `LowRank.update` of the
  arrays the region finds, and the eight blocks (b, 0, 0) of extent (1, 1024, 1280) tile the 8 × 1024 × 1280 result:
  index (b, s, o) lies in the block of the point whose sample is b. The two weight arrays are what the host
  operations before the region wrote: the reshaped halves of the embedding row.
-/
import proofs.«182181_j2826088480798_1_alg».proof.Proof.Gen.KernelIdeal.Value
import proofs.«182181_j2826088480798_1_alg».proof.Proof.Body
import proofs.«182181_j2826088480798_1_alg».proof.Proof.LowRank

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds and the blocks a point stages, at their literal types -/

abbrev actArr (c : Dev nD) : Cert.LowRank.SAct.Idx → EReal := V m c main_arg0
abbrev downArr (c : Dev nD) : Cert.LowRank.SDown.Idx → EReal := V m c main_v1
abbrev upArr (c : Dev nD) : Cert.LowRank.SUp.Idx → EReal := V m c main_v3

abbrev actBlk (c : Dev nD) (t : Fin cfg0.N) : Vec Ideal S1x1024x1280 .f32 := iblk m c 0 t
abbrev downBlk (c : Dev nD) (t : Fin cfg0.N) : Vec Ideal S1x64x1280 .f32 := iblk m c 1 t
abbrev upBlk (c : Dev nD) (t : Fin cfg0.N) : Vec Ideal S1x1280x64 .f32 := iblk m c 2 t

/-! ## The index maps, decided over the grid -/

theorem zeros : (![0, 0, 0] : Fin 3 → Nat) = fun _ => 0 := funext fun a => by fin_cases a <;> rfl

/-- Every operand's block index at a point is (b, 0, 0) for the one sample b < 8 the output's block names. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (2 : Fin 3) = 0 ∧ win0_3.index t (0 : Fin 3) ≤ 7 :=
  (by decide +kernel : ∀ t : Fin grid0.N, _)

/-- Every sample is some point's. -/
theorem idx_onto : ∀ b : Fin 8, ∃ t : Fin cfg0.N, win0_3.index t (0 : Fin 3) = b.val :=
  (by decide +kernel : ∀ b : Fin 8, ∃ t : Fin grid0.N, win0_3.index t (0 : Fin 3) = b.val)

/-- The sample point `t` works on. -/
def sample (t : Fin cfg0.N) : Fin 8 := ⟨win0_3.index t (0 : Fin 3), by have := (idx_facts t).2.2.2.2.2.2.2.2.2.2.2; omega⟩

/-! ## Each staged block is its sample's slab of the array -/

theorem actBlk_apply (c : Dev nD) (t : Fin cfg0.N) (s : Fin 1024) (d : Fin 1280) :
    actBlk m c t (ix3 0 s d) = actArr m c (ix3 (sample t) s d) := by
  obtain ⟨e0, e1, e2, -⟩ := idx_facts t
  show V m c main_arg0 (((cfg0.win 0).blk t).view.emb (ix3 0 s d)) = V m c main_arg0 (ix3 (sample t) s d)
  refine congrArg _ (funext fun a => Fin.ext ?_)
  match a with
  | ⟨0, _⟩ => show win0_0.index t (0 : Fin 3) * 1 + 1 * 0 = win0_3.index t (0 : Fin 3); omega
  | ⟨1, _⟩ => show win0_0.index t (1 : Fin 3) * 1024 + 1 * s.val = s.val; omega
  | ⟨2, _⟩ => show win0_0.index t (2 : Fin 3) * 1280 + 1 * d.val = d.val; omega

theorem downBlk_apply (c : Dev nD) (t : Fin cfg0.N) (r : Fin 64) (d : Fin 1280) :
    downBlk m c t (ix3 0 r d) = downArr m c (ix3 (sample t) r d) := by
  obtain ⟨-, -, -, e0, e1, e2, -⟩ := idx_facts t
  show V m c main_v1 (((cfg0.win 1).blk t).view.emb (ix3 0 r d)) = V m c main_v1 (ix3 (sample t) r d)
  refine congrArg _ (funext fun a => Fin.ext ?_)
  match a with
  | ⟨0, _⟩ => show win0_1.index t (0 : Fin 3) * 1 + 1 * 0 = win0_3.index t (0 : Fin 3); omega
  | ⟨1, _⟩ => show win0_1.index t (1 : Fin 3) * 64 + 1 * r.val = r.val; omega
  | ⟨2, _⟩ => show win0_1.index t (2 : Fin 3) * 1280 + 1 * d.val = d.val; omega

theorem upBlk_apply (c : Dev nD) (t : Fin cfg0.N) (o : Fin 1280) (r : Fin 64) :
    upBlk m c t (ix3 0 o r) = upArr m c (ix3 (sample t) o r) := by
  obtain ⟨-, -, -, -, -, -, e0, e1, e2, -⟩ := idx_facts t
  show V m c main_v3 (((cfg0.win 2).blk t).view.emb (ix3 0 o r)) = V m c main_v3 (ix3 (sample t) o r)
  refine congrArg _ (funext fun a => Fin.ext ?_)
  match a with
  | ⟨0, _⟩ => show win0_2.index t (0 : Fin 3) * 1 + 1 * 0 = win0_3.index t (0 : Fin 3); omega
  | ⟨1, _⟩ => show win0_2.index t (1 : Fin 3) * 1280 + 1 * o.val = o.val; omega
  | ⟨2, _⟩ => show win0_2.index t (2 : Fin 3) * 64 + 1 * r.val = r.val; omega

/-- Where entry (z, s, o) of the output's block at point `t` sits in the result array. -/
theorem out_emb (t : Fin cfg0.N) (z : Fin 1) (s : Fin 1024) (o : Fin 1280) :
    ((cfg0.win 3).blk t).view.emb (ix3 z s o) = (ix3 (sample t) s o : Cert.LowRank.SAct.Idx) := by
  obtain ⟨-, -, -, -, -, -, -, -, -, e1, e2, -⟩ := idx_facts t
  have hz : z.val = 0 := by have := z.isLt; omega
  refine funext fun a => Fin.ext ?_
  match a with
  | ⟨0, _⟩ => show win0_3.index t (0 : Fin 3) * 1 + 1 * z.val = win0_3.index t (0 : Fin 3); omega
  | ⟨1, _⟩ => show win0_3.index t (1 : Fin 3) * 1024 + 1 * s.val = s.val; omega
  | ⟨2, _⟩ => show win0_3.index t (2 : Fin 3) * 1280 + 1 * o.val = o.val; omega

/-! ## What a point writes back -/

/-- Point `t` writes back block `t` of the specification applied to the arrays the region finds. -/
theorem flushed_eq (c : Dev nD) (t : Fin cfg0.N) :
    (dats m 0 c).flushed 3 t
      = ((cfg0.win 3).blk t).view.read (Elt Ideal) (Cert.LowRank.update (actArr m c) (downArr m c) (upArr m c)) := by
  rw [Cert.KernelIdeal.Value.flushed3]
  unfold out0_3
  rw [View.canon_unit_zero zeros]
  simp only [View.ld_unit_zero (S := S1x1024x1280) zeros, View.ld_unit_zero (S := S1x64x1280) zeros, View.ld_unit_zero (S := S1x1280x64) zeros]
  refine funext fun (j : S1x1024x1280.Idx) => ?_
  show k0_pay1 (F := Ideal) (actBlk m c t) (downBlk m c t) (upBlk m c t) j
    = Cert.LowRank.update (actArr m c) (downArr m c) (upArr m c) (((cfg0.win 3).blk t).view.emb j)
  obtain ⟨z, s, o, rfl⟩ : ∃ (z : Fin 1) (s : Fin 1024) (o : Fin 1280), j = ix3 z s o := ⟨j 0, j 1, j 2, eq_ix3 j⟩
  rw [out_emb t z s o, Cert.LowRank.update_apply, Cert.KernelIdeal.Body.stored_apply]
  refine Finset.sum_congr rfl fun r _ => ?_
  rw [upBlk_apply m c t o r]
  refine congrArg (· * _) (Finset.sum_congr rfl fun d _ => ?_)
  rw [actBlk_apply m c t s d, downBlk_apply m c t r d]

/-! ## The cover -/

theorem mem_blk (t : Fin cfg0.N) (i : S8x1024x1280.Idx) :
    i ∈ ((cfg0.win 3).blk t).view.set ↔ ∀ a : Fin 3, win0_3.index t a * S1x1024x1280.size a ≤ (i a).val ∧ (i a).val < win0_3.index t a * S1x1024x1280.size a + S1x1024x1280.size a := by
  show i ∈ ((View.whole main_v4).slice (win0_3.rect t)).set ↔ _
  rw [View.set_slice_whole, Rect.mem_set_unit]
  exact Iff.rfl

/-- Every index of the result lies in the block of the point whose sample is its first coordinate. -/
theorem cover (i : S8x1024x1280.Idx) : ∃ t : Fin cfg0.N, (cfg0.win 3).flush t = true ∧ i ∈ ((cfg0.win 3).blk t).view.set := by
  have hi0 : (i 0).val < 8 := (i 0).isLt
  have hi1 : (i 1).val < 1024 := (i 1).isLt
  have hi2 : (i 2).val < 1280 := (i 2).isLt
  obtain ⟨t, ht⟩ := idx_onto ⟨(i 0).val, hi0⟩
  have q0 : win0_3.index t (0 : Fin 3) = (i 0).val := ht
  obtain ⟨-, -, -, -, -, -, -, -, -, e1, e2, -⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1280 ≤ (i 2).val ∧ (i 2).val < win0_3.index t (2 : Fin 3) * 1280 + 1280; omega

/-- The result array after the run is the specification applied to the arrays the region finds. -/
theorem final (c : Dev nD) :
    (dats m 0 c).arrAt 3 cfg0.N = Cert.LowRank.update (actArr m c) (downArr m c) (upArr m c) :=
  (dats m 0 c).arrAt_eq_of_cover 3 _ (fun t _ => flushed_eq m c t) cover

/-! ## The arrays the region finds, from the launch contents -/

theorem actArr_eq (c : Dev nD) : actArr m c = m ((c : Thread nD τ).loc main_arg0) := V_main_arg0 m c

/-- The down-projection weights: the first half of each embedding row, reshaped 64 × 1280. -/
theorem downArr_eq (c : Dev nD) :
    downArr m c = shapeCast _ (extractStridedSlice S8x81920 ![0, 0] (m ((c : Thread nD τ).loc main_arg1)) slices_S8x163840_S8x81920_0_0) shapeCasts_S8x81920_S8x64x1280 := by
  show V m c main_v1 = _
  dsimp only [V, hostOps0]
  after_results
  rfl

/-- The up-projection weights: the second half of each embedding row, reshaped 1280 × 64. -/
theorem upArr_eq (c : Dev nD) :
    upArr m c = shapeCast _ (extractStridedSlice S8x81920 ![0, 81920] (m ((c : Thread nD τ).loc main_arg1)) slices_S8x163840_S8x81920_0_81920) shapeCasts_S8x81920_S8x1280x64 := by
  show V m c main_v3 = _
  dsimp only [V, hostOps0]
  after_results
  rfl

/-! ## The run, read -/

/-- Every weakly fair execution ends with the result array at the specification of the launch contents — the
    activations, and the two reshaped halves of the embedding — and the arguments unchanged. -/
theorem run : θ_run defs (onTc (τ := τ) (main (F := Ideal))) ⟨m, fun _ => 0, ρ⟩ fun r => ∀ c : Dev nD,
      r.2.mem ((c : Thread nD τ).loc main_v4)
        = Cert.LowRank.update (m ((c : Thread nD τ).loc main_arg0))
            (shapeCast _ (extractStridedSlice S8x81920 ![0, 0] (m ((c : Thread nD τ).loc main_arg1)) slices_S8x163840_S8x81920_0_0) shapeCasts_S8x81920_S8x64x1280)
            (shapeCast _ (extractStridedSlice S8x81920 ![0, 81920] (m ((c : Thread nD τ).loc main_arg1)) slices_S8x163840_S8x81920_0_81920) shapeCasts_S8x81920_S8x1280x64)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨by rw [(h c).1, final m c, actArr_eq m c, downArr_eq m c, upArr_eq m c], (h c).2⟩)
    (Cert.KernelIdeal.Value.run_blocks m ρ)

end Cert.KernelIdeal.KernelValue

end
-- ==== Proof.RefValue.lean ====
/-
  The reference computes the specification.

  Its @main slices the two weight halves out of the flat embedding row, reshapes them to W_down (8 × 64 × 1280) and
  W_up (8 × 1280 × 64), and applies two batched products, each contracting axis 2 of both operands over the shared
  batch axis 0:  h[b, s, r] = ∑_d x[b, s, d] · W_down[b, r, d],  then  out[b, s, o] = ∑_r h[b, s, r] · W_up[b, o, r].
  Read at an index those are exactly the nested sums of `LowRank.update`, applied to the activations and the two
  reshaped slices: only the spelling of the operand indices differs.
-/
import proofs.«182181_j2826088480798_1_alg».proof.Proof.Gen.ReferenceIdeal.Read
import proofs.«182181_j2826088480798_1_alg».proof.Proof.LowRank

noncomputable section

namespace Cert.ReferenceIdeal.RefValue

open Cert.ReferenceIdeal Cert.ReferenceIdeal.Gen Cert.ReferenceIdeal.Read Idealize.ShloMosaic Idealize.ShloMosaic.ValueIdx

/-- The reference's result is the low-rank update of the activations by the two reshaped halves of the embedding. -/
theorem result_eq (x : (⟨S8x1024x1280, .f32⟩ : BufTy).Contents (Elt Ideal)) (e : (⟨S8x163840, .f32⟩ : BufTy).Contents (Elt Ideal)) :
    val_main_v5 (F := Ideal) x e = Cert.LowRank.update x (val_main_v1 (F := Ideal) e) (val_main_v4 (F := Ideal) e) := by
  funext i
  rw [val_main_v5_apply]
  show _ = ∑ r : Fin 64, (∑ d : Fin 1280, x (ix3 (i 0) (i 1) d) * val_main_v1 (F := Ideal) e (ix3 (i 0) r d)) * val_main_v4 (F := Ideal) e (ix3 (i 0) (i 2) r)
  refine Finset.sum_congr rfl fun r _ => ?_
  rw [val_main_v2_apply]
  have eu : ridx_main_v5 i r = ix3 (i 0) (i 2) r :=
    funext fun a => by match a with | ⟨0, _⟩ => rfl | ⟨1, _⟩ => rfl | ⟨2, _⟩ => rfl
  have ex : ∀ d : Fin 1280, lidx_main_v2 (lidx_main_v5 i r) d = ix3 (i 0) (i 1) d := fun d =>
    funext fun a => by match a with | ⟨0, _⟩ => rfl | ⟨1, _⟩ => rfl | ⟨2, _⟩ => rfl
  have ed : ∀ d : Fin 1280, ridx_main_v2 (lidx_main_v5 i r) d = ix3 (i 0) r d := fun d =>
    funext fun a => by match a with | ⟨0, _⟩ => rfl | ⟨1, _⟩ => rfl | ⟨2, _⟩ => rfl
  simp only [eu, ex, ed]
  rfl

end Cert.ReferenceIdeal.RefValue

end
-- ==== Proof.lean ====
/-
  Per-sample low-rank update: the certificate's five claims.

  Kernel and reference both compute, for each of 8 samples, a 1024 × 1280 activation matrix pushed through a rank-64
  bottleneck whose two weight matrices are the two halves of the sample's embedding row:

      out[b, s, o] = ∑_{r < 64} ( ∑_{d < 1280} x[b, s, d] · W_down[b, r, d] ) · W_up[b, o, r]          (LowRank.lean).

  The kernel does it one sample per grid point with two matrix products into zero accumulators, narrowing to bf16
  in between; over the extended reals the narrowing is the identity and a product into the zero accumulator is the
  plain sum, so the stored block is the sample's slab of that function (Body.lean) and the eight blocks tile the
  result (KernelValue.lean). The reference does it with two batched products over the whole arrays, which read at
  an index are the same nested sums (RefValue.lean). The sums are nested identically on both sides and the weight
  arrays are the same reshaped slices of the same embedding, so the results agree on every input, finite or not:
  the precondition is never opened.

  The three frames are the generated ones (the reference's is its run with the result dropped), and the ideal pass
  rewrote nothing, so `preserves` is `True`.
-/
import proofs.«182181_j2826088480798_1_alg».proof.Defs
import proofs.«182181_j2826088480798_1_alg».proof.Proof.Gen.Kernel
import proofs.«182181_j2826088480798_1_alg».proof.Proof.Gen.Kernel.Skeleton
import proofs.«182181_j2826088480798_1_alg».proof.Proof.Gen.Kernel.Launch
import proofs.«182181_j2826088480798_1_alg».proof.Proof.Gen.Kernel.Points
import proofs.«182181_j2826088480798_1_alg».proof.Proof.Gen.Kernel.Frame
import proofs.«182181_j2826088480798_1_alg».proof.Proof.Gen.KernelIdeal
import proofs.«182181_j2826088480798_1_alg».proof.Proof.Gen.KernelIdeal.Skeleton
import proofs.«182181_j2826088480798_1_alg».proof.Proof.Gen.KernelIdeal.Launch
import proofs.«182181_j2826088480798_1_alg».proof.Proof.Gen.KernelIdeal.Points
import proofs.«182181_j2826088480798_1_alg».proof.Proof.Gen.KernelIdeal.Frame
import proofs.«182181_j2826088480798_1_alg».proof.Proof.Gen.KernelIdeal.Value
import proofs.«182181_j2826088480798_1_alg».proof.Proof.Gen.ReferenceIdeal
import proofs.«182181_j2826088480798_1_alg».proof.Proof.Gen.ReferenceIdeal.Run
import proofs.«182181_j2826088480798_1_alg».proof.Proof.Gen.ReferenceIdeal.Read
import proofs.«182181_j2826088480798_1_alg».proof.Proof.Gen.Pre_finite_inputs
import proofs.«182181_j2826088480798_1_alg».proof.Proof.KernelValue
import proofs.«182181_j2826088480798_1_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the low-rank update of the activations by the two reshaped halves of the embedding: the
    kernel's result array block by block (`KernelValue.run`), the reference's as its two batched products read at an
    index (`RefValue.result_eq`), from memories that agree on the two arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
